-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S8192x8192 : Shape := ⟨2, ![8192, 8192]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192 : Shape := ⟨1, ![8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x8192, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v1 : Ref sig .tc := ⟨.hbm, 7, rfl⟩
abbrev main_call1_v0 : Ref sig .tc := ⟨.hbm, 8, rfl⟩
abbrev main_call1_cst : Ref sig .tc := ⟨.hbm, 9, rfl⟩
abbrev main_call1_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.CosineSpec.lean ====
/-
  Pairwise cosine similarity of the rows of two matrices, as ONE function of the two arrays.

  For x with rows x_r and y with rows y_s, all of length 512, the entry at (r, s) is

      ⟨x_r, y_s⟩ / max (‖x_r‖ · ‖y_s‖, ε)

  on the extended reals: ⟨x_r, y_s⟩ = Σ_k x(r,k) · y(s,k), ‖x_r‖ = √(Σ_k x(r,k)²), and ε the float whose word is
  0x322BCC77 (the float nearest 1e-8), the same word on both sides, so it is never evaluated. The definition is
  generic in the two row counts: a 1024-row tile and the 8192-row array are read by the same three functions, and a
  tile's entry is the array's entry at the tile's offset because every summand is (`entry_congr`).

  Also here: the two keepdims column forms of a layout operation read at coordinates — a vector [a] cast to a column
  [a, 1], and a column [a, 1] broadcast over the columns of [a, b].
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Cosine

open Idealize.ShloMosaic Idealize.ShloMosaic.ValueIdx

/-- The floor under the product of the two norms: the float with word 0x322BCC77. -/
def floorEps : EReal := Ideal.ofBits .f32 0x322BCC77#32

/-- Row r of x against row s of y: Σ_k x(r,k) · y(s,k). -/
def inner {n n' : ℕ} (x : (⟨2, ![n, 512]⟩ : Shape).Idx → EReal) (y : (⟨2, ![n', 512]⟩ : Shape).Idx → EReal)
    (r : Fin n) (s : Fin n') : EReal :=
  ∑ k : Fin 512, x (ix2 r k) * y (ix2 s k)

/-- The squared length of row r of x: Σ_k x(r,k)². -/
def sqLen {n : ℕ} (x : (⟨2, ![n, 512]⟩ : Shape).Idx → EReal) (r : Fin n) : EReal :=
  ∑ k : Fin 512, x (ix2 r k) * x (ix2 r k)

/-- The cosine of row r of x and row s of y, the product of the lengths floored at ε. -/
def entry {n n' : ℕ} (x : (⟨2, ![n, 512]⟩ : Shape).Idx → EReal) (y : (⟨2, ![n', 512]⟩ : Shape).Idx → EReal)
    (r : Fin n) (s : Fin n') : EReal :=
  Ideal.div (inner x y r s) (max (Ideal.sqrt (sqLen x r) * Ideal.sqrt (sqLen y s)) floorEps)

/-- The whole result: entry (i₀, i₁) of the 8192 × 8192 array is the cosine of row i₀ of a and row i₁ of b. -/
def cosSim (a b : (⟨2, ![8192, 512]⟩ : Shape).Idx → EReal) : (⟨2, ![8192, 8192]⟩ : Shape).Idx → EReal :=
  fun i => entry a b (⟨(i 0).val, (i 0).isLt⟩ : Fin 8192) (⟨(i 1).val, (i 1).isLt⟩ : Fin 8192)

/-- An entry depends only on the two rows it names: if row r of x is row r' of x' and row s of y is row s' of y',
    entry by entry, the two cosines are equal. -/
theorem entry_congr {n n' m m' : ℕ} (x : (⟨2, ![n, 512]⟩ : Shape).Idx → EReal) (y : (⟨2, ![n', 512]⟩ : Shape).Idx → EReal)
    (x' : (⟨2, ![m, 512]⟩ : Shape).Idx → EReal) (y' : (⟨2, ![m', 512]⟩ : Shape).Idx → EReal)
    (r : Fin n) (s : Fin n') (r' : Fin m) (s' : Fin m')
    (hx : ∀ k : Fin 512, x (ix2 r k) = x' (ix2 r' k)) (hy : ∀ k : Fin 512, y (ix2 s k) = y' (ix2 s' k)) :
    entry x y r s = entry x' y' r' s' := by
  unfold entry inner sqLen
  simp only [hx, hy]

/-! ## Two column forms of a layout operation, read at coordinates -/

variable {α : Type}

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Cosine

end
-- ==== Proof.TileValue.lean ====
/-
  What the kernel body computes from one pair of tiles, entry by entry.

  The body loads a 1024 × 512 tile x₀ of the first array and a 1024 × 512 tile x₁ of the second, contracts them over
  the 512 columns into a 1024 × 1024 tile of inner products, takes each tile's row lengths √(Σ_k x(r,k)²) as a column
  [1024, 1], turns the second column into a row [1, 1024], lays the first down the rows and the second along the
  columns of the 1024 × 1024 tile, multiplies, floors at ε and divides. Read at (p, q) that is the cosine
  `Cosine.entry x₀ x₁ p q` of row p of x₀ and row q of x₁: the contraction into a zero accumulator is the plain sum
  over k, the lane sum of the squares is the plain sum over k, and every layout step only moves an index.
-/
import proofs.«123335_j32650341384488_1_alg».proof.Proof.Gen.KernelIdeal.Skeleton
import proofs.«123335_j32650341384488_1_alg».proof.Proof.CosineSpec

noncomputable section

namespace Cert.KernelIdeal.TileValue

open Cert.KernelIdeal Cert.KernelIdeal.Gen
open Idealize.ShloMosaic Idealize.ShloMosaic.ValueIdx

/-! ## The contraction of two tiles over their columns -/

theorem lhs_axis0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_axis1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_axis0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_axis1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The tiles' product into a zero accumulator, at (p, q): row p of x₀ against row q of x₁. -/
theorem tile_inner (x0 x1 : FVec Ideal S1024x512 .f32) (p q : Fin 1024) :
    matmul dot_S1024x512_S1024x512_S1024x1024_1_1_0_0_n_n none x0 x1 (constant S1024x1024 .f32 0x00000000#32) (ix2 p q)
      = Cert.Cosine.inner x0 x1 p q := by
  refine (Ideal.matmul_constant_zero_apply dot_S1024x512_S1024x512_S1024x1024_1_1_0_0_n_n none x0 x1 (ix2 p q)).trans ?_
  unfold Cert.Cosine.inner
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-! ## A tile's row lengths -/

/-- The lane sum of a tile's squares, at row p: Σ_k x(p,k)². -/
theorem laneSum_sq (x : FVec Ideal S1024x512 .f32) (p : Fin 1024) :
    multiReduction (F := Ideal) .add [1] S1024 (mulf x x) 0x00000000#32 Facts₀.reduces_S1024x512_S1024 (.inl rfl) rfl (ix1 p)
      = Cert.Cosine.sqLen x p := by
  refine (Ideal.multiReduction_add_single (mulf x x) 0x00000000#32 Facts₀.reduces_S1024x512_S1024 (.inl rfl) rfl (ix1 p)).trans ?_
  unfold Cert.Cosine.sqLen
  show ∑ k : Fin 512, _ = ∑ k : Fin 512, _
  refine Finset.sum_congr rfl fun k _ => ?_
  have e : Facts₀.reduces_S1024x512_S1024.lift (ix1 p) k = ix2 p k :=
    funext fun a => Fin.ext (by match a with | ⟨0, _⟩ => rfl | ⟨1, _⟩ => rfl)
  rw [e]
  rfl

/-- A tile's row lengths as the body holds them: a column [1024, 1]. -/
abbrev lenCol (x : FVec Ideal S1024x512 .f32) : FVec Ideal S1024x1 .f32 :=
  sqrt (shapeCast S1024x1 (multiReduction (F := Ideal) .add [1] S1024 (mulf x x) 0x00000000#32 Facts₀.reduces_S1024x512_S1024 (.inl rfl) rfl) Facts₀.shapeCasts_S1024_S1024x1)

/-- The column at (p, 0) is the length of row p. -/
theorem lenCol_apply (x : FVec Ideal S1024x512 .f32) (p : Fin 1024) (u : Fin 1) :
    lenCol x (ix2 p u) = Ideal.sqrt (Cert.Cosine.sqLen x p) :=
  congrArg Ideal.sqrt ((Cert.Cosine.shapeCast_a_a1_apply _ Facts₀.shapeCasts_S1024_S1024x1 p u).trans (laneSum_sq x p))

/-! ## The body's stored value at an entry -/

/-- The stored tile at (p, q) is the cosine of row p of x₀ and row q of x₁. -/
theorem pay_entry (x0 x1 : FVec Ideal S1024x512 .f32) (p q : Fin 1024) :
    k0_pay1 (F := Ideal) x0 x1 (ix2 p q) = Cert.Cosine.entry x0 x1 p q := by
  have hrow : broadcastTo S1024x1024 (lenCol x0) Facts₀.broadcasts_S1024x1_S1024x1024 (ix2 p q) = Ideal.sqrt (Cert.Cosine.sqLen x0 p) :=
    (Cert.Cosine.broadcastTo_a1_ab_apply _ Facts₀.broadcasts_S1024x1_S1024x1024 p q).trans (lenCol_apply x0 p 0)
  have hcol : broadcastTo S1024x1024 (transpose S1x1024 [1, 0] (lenCol x1) Facts₀.transposes_S1024x1_p1_0_S1x1024) Facts₀.broadcasts_S1x1024_S1024x1024 (ix2 p q)
      = Ideal.sqrt (Cert.Cosine.sqLen x1 q) :=
    (broadcastTo_1b_ab_apply _ Facts₀.broadcasts_S1x1024_S1024x1024 p q).trans
      ((transpose_ix2_apply _ Facts₀.transposes_S1024x1_p1_0_S1x1024 (0 : Fin 1) q).trans (lenCol_apply x1 q 0))
  unfold k0_pay1 Cert.Cosine.entry
  exact congrArg₂ Ideal.div (tile_inner x0 x1 p q) (congrArg₂ max (congrArg₂ (· * ·) hrow hcol) rfl)

end Cert.KernelIdeal.TileValue

end
-- ==== Proof.ArrayValue.lean ====
/-
  From tiles to the whole array: after the run the result array holds the pairwise cosine similarity of the two
  argument arrays.

  The 8192 × 8192 result is cut into an 8 × 8 grid of 1024 × 1024 tiles. At grid point (I, J) the body is handed rows
  1024·I … 1024·I + 1023 of the first array and rows 1024·J … 1024·J + 1023 of the second, each with all 512 columns,
  and the tile it writes back has, at (p, q), the cosine of rows p and q of those two row blocks — which are rows
  1024·I + p and 1024·J + q of the arrays, exactly the rows the array entry (1024·I + p, 1024·J + q) names. Every entry
  of the array lies in the tile at (i₀ / 1024, i₁ / 1024), so the tiles cover the array and it ends as one function
  of the arguments.
-/
import proofs.«123335_j32650341384488_1_alg».proof.Proof.Gen.KernelIdeal.Value
import proofs.«123335_j32650341384488_1_alg».proof.Proof.TileValue

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- Over the 64 grid points: the first array's row block is the result tile's row index and the second array's row
    block is the result tile's column index, both input tiles span all columns, and the tile indices stay below 8. -/
theorem tile_offsets : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 7 :=
  (by decide +kernel : ∀ t : Fin grid0.N, _)

/-- Every one of the 8 × 8 tiles is some grid point's. -/
theorem tile_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- What grid point t writes back is tile t of the cosine similarity of the two arrays. -/
theorem flushed_eq (c : Dev nD) (t : Fin cfg0.N) :
    (dats m 0 c).flushed 2 t
      = ((cfg0.win 2).blk t).view.read (Elt Ideal) (Cert.Cosine.cosSim (V m c main_arg0) (V m c main_arg1)) := by
  rw [Value.flushed2]
  unfold out0_2
  rw [View.canon_unit_zero origin_zero]
  simp only [View.ld_unit_zero (S := S1024x512) origin_zero]
  obtain ⟨e0, e1, e2, e3, -, -⟩ := tile_offsets t
  funext j
  obtain ⟨p, q, rfl⟩ : ∃ (p q : Fin 1024), j = ix2 p q := ⟨j 0, j 1, eq_ix2 j⟩
  show k0_pay1 (F := Ideal) (iblk m c 0 t) (iblk m c 1 t) (ix2 p q)
    = Cert.Cosine.cosSim (V m c main_arg0) (V m c main_arg1) (((cfg0.win 2).blk t).view.emb (ix2 p q))
  refine (TileValue.pay_entry (iblk m c 0 t) (iblk m c 1 t) p q).trans ?_
  unfold Cert.Cosine.cosSim
  refine Cert.Cosine.entry_congr _ _ _ _ p q _ _ (fun k => ?_) (fun k => ?_)
  · show V m c main_arg0 (((cfg0.win 0).blk t).view.emb (ix2 p k)) = V m c main_arg0 (ix2 _ k)
    refine congrArg (V m c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 512 + 1 * k.val = k.val
      omega
  · show V m c main_arg1 (((cfg0.win 1).blk t).view.emb (ix2 q k)) = V m c main_arg1 (ix2 _ k)
    refine congrArg (V m c main_arg1) (funext fun a => Fin.ext ?_)
    match a with
    | ⟨0, _⟩ =>
      show win0_1.index t (0 : Fin 2) * 1024 + 1 * q.val = win0_2.index t (1 : Fin 2) * 1024 + 1 * q.val
      omega
    | ⟨1, _⟩ =>
      show win0_1.index t (1 : Fin 2) * 512 + 1 * k.val = k.val
      omega

/-- An entry of the array is in grid point t's tile iff each coordinate is in the tile's range on its axis. -/
theorem mem_tile (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every entry of the array is in some grid point's tile: the one at (i₀ / 1024, i₁ / 1024). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := tile_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- The result array after the run is the cosine similarity of the two argument arrays. -/
theorem final (c : Dev nD) :
    (dats m 0 c).arrAt 2 cfg0.N = Cert.Cosine.cosSim (V m c main_arg0) (V m c main_arg1) :=
  (dats m 0 c).arrAt_eq_of_cover 2 (Cert.Cosine.cosSim (V m c main_arg0) (V m c main_arg1))
    (fun t _ => flushed_eq m c t) (covered)

/-- The kernel's run: it ends with the result array at the cosine similarity of the arguments, the arguments unchanged. -/
theorem run : θ_run defs (onTc (τ := τ) (main (F := Ideal))) ⟨m, fun _ => 0, ρ⟩ fun r => ∀ c : Dev nD,
      r.2.mem ((c : Thread nD τ).loc main_v0)
        = Cert.Cosine.cosSim (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.RefCosine.lean ====
/-
  The reference's result, index by index, is the pairwise cosine similarity `Cosine.cosSim` of its two arguments.

  The reference computes the 8192 × 8192 matrix of inner products by one contraction over the 512 columns, each
  array's row lengths as √(0 + Σ_k x(r,k)²), lays the first array's lengths down the rows and the second's along the
  columns, multiplies them, floors the product at ε, and divides. Read at the entry (i₀, i₁) that is
  ⟨a_{i₀}, b_{i₁}⟩ / max (‖a_{i₀}‖ · ‖b_{i₁}‖, ε): the host's quotient, maximum, product and square root are the
  extended reals' own, and the sum's initial value is the zero float, which adds nothing.
-/
import proofs.«123335_j32650341384488_1_alg».proof.Proof.Gen.ReferenceIdeal.Read
import proofs.«123335_j32650341384488_1_alg».proof.Proof.CosineSpec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The composed index maps, by coordinates -/

/-- The contraction's left operand at output (i₀, i₁) and column k is row i₀ at k. -/
theorem lidx_eq (i : S8192x8192.Idx) (k : Fin 512) :
    lidx_main_v0 i k = ix2 (⟨(i 0).val, (i 0).isLt⟩ : Fin 8192) k :=
  funext fun a => Fin.ext (by match a with | ⟨0, _⟩ => rfl | ⟨1, _⟩ => rfl)

/-- Its right operand is row i₁ at k. -/
theorem ridx_eq (i : S8192x8192.Idx) (k : Fin 512) :
    ridx_main_v0 i k = ix2 (⟨(i 1).val, (i 1).isLt⟩ : Fin 8192) k :=
  funext fun a => Fin.ext (by match a with | ⟨0, _⟩ => rfl | ⟨1, _⟩ => rfl)

/-- The first array's lengths, laid down the rows: at (i₀, i₁) the sum runs over row i₀. -/
theorem rowIdx_eq (i : S8192x8192.Idx) (k : Fin 512) :
    idx_main_call0_v1 (idx_main_v3 (idx_main_v5 i)) k = ix2 (⟨(i 0).val, (i 0).isLt⟩ : Fin 8192) k :=
  funext fun a => Fin.ext (by match a with | ⟨0, _⟩ => rfl | ⟨1, _⟩ => rfl)

/-- The second array's lengths, laid along the columns: at (i₀, i₁) the sum runs over row i₁. -/
theorem colIdx_eq (i : S8192x8192.Idx) (k : Fin 512) :
    idx_main_call1_v1 (idx_main_v4 (idx_main_v6 i)) k = ix2 (⟨(i 1).val, (i 1).isLt⟩ : Fin 8192) k :=
  funext fun a => Fin.ext (by match a with | ⟨0, _⟩ => rfl | ⟨1, _⟩ => rfl)

/-! ## The reference is the specification -/

/-- The reference's last stage is `cosSim` of the two arrays. -/
theorem ref_eq (x0 x1 : (⟨S8192x512, .f32⟩ : BufTy).Contents (Elt Ideal)) :
    val_main_v10 (F := Ideal) x0 x1 = Cert.Cosine.cosSim x0 x1 := by
  funext i
  rw [val_main_v10_apply, val_main_v0_apply, val_main_v9_apply, val_main_v7_apply, val_main_v8_apply, val_main_cst_apply,
    val_main_v5_apply, val_main_v3_apply, val_main_v1_apply, val_main_call0_v1_apply,
    val_main_v6_apply, val_main_v4_apply, val_main_v2_apply, val_main_call1_v1_apply]
  simp only [val_main_call0_v0_apply, val_main_call1_v0_apply, val_main_call0_cst_apply, val_main_call1_cst_apply,
    lidx_eq, ridx_eq, rowIdx_eq, colIdx_eq,
    Ideal.hostDivf_def, Ideal.maximumf_def, Ideal.mulf_def, Ideal.hostUnary_sqrt_def, Ideal.ofBits_def,
    Ideal.ofBits_zero_f32, zero_add]
  rfl

end Cert.ReferenceIdeal.RefValue

end
-- ==== Proof.lean ====
/-
  Pairwise cosine similarity, tiled, against the plain computation.

  Both programs take a : f32[8192, 512], b : f32[8192, 512] (and an integer vector neither of them reads) and return the
  8192 × 8192 matrix whose entry (i, j) is

      ⟨a_i, b_j⟩ / max (‖a_i‖ · ‖b_j‖, ε),     ⟨a_i, b_j⟩ = Σ_k a(i,k) · b(j,k),   ‖a_i‖ = √(Σ_k a(i,k)²),

  with ε the float whose word is 0x322BCC77, the same word in both. The reference computes it on whole arrays: one
  contraction, two vectors of row lengths, an outer product of them, a floor, a quotient. The kernel computes it one
  1024 × 1024 tile at a time over an 8 × 8 grid, from 1024 rows of a and 1024 rows of b, recomputing the row lengths in
  every tile. On the extended reals the two are the same function of (a, b), index by index: no law beyond the
  re-indexing of the sums is used, and so nothing is asked of the inputs' finiteness.

  `Cosine.cosSim` (CosineSpec) is that function; RefCosine reads the reference's stages as it; TileValue reads the
  kernel body's stored tile as its entries on the two row blocks; ArrayValue places the tiles in the array. Here the
  claims are assembled: the three runs, the (empty) list of idealization rewrites, and the two results' equality.
-/
import proofs.«123335_j32650341384488_1_alg».proof.Defs
import proofs.«123335_j32650341384488_1_alg».proof.Proof.Gen.Kernel
import proofs.«123335_j32650341384488_1_alg».proof.Proof.Gen.Kernel.Skeleton
import proofs.«123335_j32650341384488_1_alg».proof.Proof.Gen.Kernel.Launch
import proofs.«123335_j32650341384488_1_alg».proof.Proof.Gen.Kernel.Points
import proofs.«123335_j32650341384488_1_alg».proof.Proof.Gen.Kernel.Frame
import proofs.«123335_j32650341384488_1_alg».proof.Proof.Gen.KernelIdeal
import proofs.«123335_j32650341384488_1_alg».proof.Proof.Gen.KernelIdeal.Skeleton
import proofs.«123335_j32650341384488_1_alg».proof.Proof.Gen.KernelIdeal.Launch
import proofs.«123335_j32650341384488_1_alg».proof.Proof.Gen.KernelIdeal.Points
import proofs.«123335_j32650341384488_1_alg».proof.Proof.Gen.KernelIdeal.Frame
import proofs.«123335_j32650341384488_1_alg».proof.Proof.Gen.ReferenceIdeal
import proofs.«123335_j32650341384488_1_alg».proof.Proof.Gen.Pre_finite_inputs
import proofs.«123335_j32650341384488_1_alg».proof.Proof.Gen.KernelIdeal.Value
import proofs.«123335_j32650341384488_1_alg».proof.Proof.Gen.ReferenceIdeal.Run
import proofs.«123335_j32650341384488_1_alg».proof.Proof.Gen.ReferenceIdeal.Read
import proofs.«123335_j32650341384488_1_alg».proof.Proof.ArrayValue
import proofs.«123335_j32650341384488_1_alg».proof.Proof.RefCosine
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories that agree on the arguments, the kernel's result array and the reference's are both the cosine
    similarity of those arguments: the kernel's by its tiles covering the array, the reference's stage by stage. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v10_eq _ _).trans ((Cert.ReferenceIdeal.RefValue.ref_eq _ _).trans ?_)
  rw [(hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
